-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg1 : IVec S2x800000 32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 4294917296#32
  let main_v31 : IVec S800000 32 := broadcastInDim S800000 ![] bcast_S_S800000 main_c_10
  let main_v32 : IVec S800000 1 := cmpi .sge main_v30 main_v31
  let main_v33 : IVec S1x800000 32 := (extractStridedSlice S1x800000 ![0, 0] · slices_S2x800000_S1x800000_0_0) main_arg1
  let main_v34 : IVec S800000 32 := shapeCast S800000 main_v33 shapeCasts_S1x800000_S800000
  fn_part2 (F := F) main_v28 main_v32 main_v34

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 56
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x256, .f32⟩
  | .hbm, ⟨54, _⟩ => ⟨S1x128, .f32⟩
  | .hbm, ⟨55, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.MlpSpec.lean ====
/-
  The two-layer perceptron that both programs apply to every node, written once, for ONE node, over the extended reals.

  A node carries a feature row `x` and an aggregated-neighbour row `a` (both of length 128). The layer first averages
  them, `u j = ½ · (x j + a j)`; the hidden unit `k` (of 256) is `h k = max (∑ j, u j · W₁ (j, k) + b₁ k) 0`; the output
  column `c` (of 128) is `∑ k, h k · W₂ (k, c) + b₂ c`. Nothing here mixes two nodes, so a block of rows and the
  whole array of rows are the same function applied row by row; that is what lets a tiled evaluation and a whole-array
  evaluation be compared without any algebraic law: the two sides are literally the same sums.

  The one half and the zero are kept as the binary words the programs carry; they are never evaluated.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The word of `0.5`, read at the extended reals. -/
abbrev half : EReal := Ideal.ofBits .f32 0x3F000000#32

/-- The word of `0.0`, read at the extended reals. -/
abbrev zero : EReal := Ideal.ofBits .f32 0x00000000#32

/-- The averaged input of one node: `½ · (x j + a j)`. -/
def mix (x a : Fin 128 → EReal) (j : Fin 128) : EReal := half * (x j + a j)

/-- Hidden unit `k` of one node: the rectified affine image of the averaged input. -/
def hidden (x a : Fin 128 → EReal) (W1 : (⟨2, ![128, 256]⟩ : Shape).Idx → EReal) (b1 : Fin 256 → EReal) (k : Fin 256) : EReal :=
  max ((∑ j : Fin 128, mix x a j * W1 (ix2 j k)) + b1 k) zero

/-- Output column `c` of one node: the affine image of its hidden units. -/
def node (x a : Fin 128 → EReal) (W1 : (⟨2, ![128, 256]⟩ : Shape).Idx → EReal) (b1 : Fin 256 → EReal)
    (W2 : (⟨2, ![256, 128]⟩ : Shape).Idx → EReal) (b2 : Fin 128 → EReal) (c : Fin 128) : EReal :=
  (∑ k : Fin 256, hidden x a W1 b1 k * W2 (ix2 k c)) + b2 c

/-- Row `r` of an `[n, 128]` array as a vector. -/
abbrev row {n : Nat} (X : (⟨2, ![n, 128]⟩ : Shape).Idx → EReal) (r : Fin n) : Fin 128 → EReal := fun j => X (ix2 r j)

/-- The layer over all 50000 nodes: entry `(r, c)` is node `r`'s output column `c`, from row `r` of the features and of
    the aggregate. The biases come as vectors of length 256 and 128. -/
def layer (X A : (⟨2, ![50000, 128]⟩ : Shape).Idx → EReal) (W1 : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![50000, 128]⟩ : Shape).Idx → EReal :=
  fun i => node (row X (i 0 : Fin 50000)) (row A (i 0 : Fin 50000)) W1 (fun k => b1 (ix1 k)) W2 (fun c => b2 (ix1 c)) (i 1 : Fin 128)

theorem layer_apply (X A : (⟨2, ![50000, 128]⟩ : Shape).Idx → EReal) (W1 : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (r : Fin 50000) (c : Fin 128) :
    layer X A W1 b1 W2 b2 (ix2 r c) = node (row X r) (row A r) W1 (fun k => b1 (ix1 k)) W2 (fun c => b2 (ix1 c)) c := rfl

end Cert.Mlp

end
-- ==== Proof.RefLayer.lean ====
/-
  The reference's last stage is the layer: read one operation at a time, entry `(r, c)` of its result is
  `∑ k, max (∑ j, ½·(x (r, j) + a (r, j)) · W₁ (j, k) + b₁ k) 0 · W₂ (k, c) + b₂ c`, where `a` is the stage that holds the
  mean of the neighbours' weighted features. That stage is kept whole here: how it is made of the edge list is not
  opened on this side.

  Each of the host's two products is a sum over its one contracted axis; each bias is a vector laid along the rows, so
  at `(r, k)` it is the vector at `k`; the rectifier compares with the zero word. The only work is to say which entry
  of each operand an entry of the result reads.
-/
import proofs.«413359_j55731495632942_3_alg».proof.Proof.Gen.ReferenceIdeal.Read
import proofs.«413359_j55731495632942_3_alg».proof.Proof.MlpSpec

noncomputable section

namespace Cert.ReferenceIdeal.Layer

open Cert.ReferenceIdeal Cert.ReferenceIdeal.Read Idealize.ShloMosaic Idealize.ShloMosaic.ValueIdx Cert.Mlp

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal))

/-- The averaged input of node `r` at feature `j`: the half word times (feature + mean of neighbours). -/
theorem mix_eq (r : Fin 50000) (j : Fin 128) :
    val_main_v28 (F := Ideal) x0 x1 x2 (ix2 r j) = mix (row x0 r) (row (val_main_v25 (F := Ideal) x0 x1 x2) r) j := by
  rw [val_main_v28_apply, val_main_v27_apply, val_main_cst_4_apply, val_main_v26_apply]
  rfl

/-- The first product reads row `r` of the averaged input against column `k` of `W₁`. -/
theorem lidx29 (r : Fin 50000) (k : Fin 256) (j : Fin 128) : lidx_main_v29 (ix2 r k) j = ix2 r j :=
  funext fun a => Fin.ext (by match a with | ⟨0, _⟩ => rfl | ⟨1, _⟩ => rfl)
theorem ridx29 (r : Fin 50000) (k : Fin 256) (j : Fin 128) : ridx_main_v29 (ix2 r k) j = ix2 j k :=
  funext fun a => Fin.ext (by match a with | ⟨0, _⟩ => rfl | ⟨1, _⟩ => rfl)

/-- The first bias, laid along the rows, is the vector at the column. -/
theorem bias1 (r : Fin 50000) (k : Fin 256) : idx_main_v30 (idx_main_v31 (ix2 r k)) = ix1 k :=
  funext fun a => Fin.ext (by match a with | ⟨0, _⟩ => rfl)

/-- Hidden unit `k` of node `r`. -/
theorem hidden_eq (r : Fin 50000) (k : Fin 256) :
    val_main_v33 (F := Ideal) x0 x1 x2 x3 x4 (ix2 r k)
      = hidden (row x0 r) (row (val_main_v25 (F := Ideal) x0 x1 x2) r) x3 (fun k => x4 (ix1 k)) k := by
  rw [val_main_v33_apply, val_main_v32_apply, val_main_v29_apply, val_main_v31_apply, val_main_v30_apply,
    val_main_call0_v0_apply, val_main_call0_cst_apply, bias1]
  simp only [lidx29, ridx29, mix_eq]
  rfl

/-- The second product reads row `r` of the hidden units against column `c` of `W₂`. -/
theorem lidx34 (r : Fin 50000) (c : Fin 128) (k : Fin 256) : lidx_main_v34 (ix2 r c) k = ix2 r k :=
  funext fun a => Fin.ext (by match a with | ⟨0, _⟩ => rfl | ⟨1, _⟩ => rfl)
theorem ridx34 (r : Fin 50000) (c : Fin 128) (k : Fin 256) : ridx_main_v34 (ix2 r c) k = ix2 k c :=
  funext fun a => Fin.ext (by match a with | ⟨0, _⟩ => rfl | ⟨1, _⟩ => rfl)

/-- The second bias, laid along the rows, is the vector at the column. -/
theorem bias2 (r : Fin 50000) (c : Fin 128) : idx_main_v35 (idx_main_v36 (ix2 r c)) = ix1 c :=
  funext fun a => Fin.ext (by match a with | ⟨0, _⟩ => rfl)

/-- The reference's result is the layer over the features and its own mean-of-neighbours stage. -/
theorem result_eq :
    val_main_v37 (F := Ideal) x0 x1 x2 x3 x4 x5 x6 = layer x0 (val_main_v25 (F := Ideal) x0 x1 x2) x3 x4 x5 x6 := by
  funext i
  obtain ⟨r, c, rfl⟩ : ∃ (r : Fin 50000) (c : Fin 128), i = ix2 r c := ⟨i 0, i 1, eq_ix2 i⟩
  rw [layer_apply, val_main_v37_apply, val_main_v34_apply, val_main_v36_apply, val_main_v35_apply, bias2]
  simp only [lidx34, ridx34, hidden_eq]
  rfl

end Cert.ReferenceIdeal.Layer

end
-- ==== Proof.KernelNode.lean ====
/-
  What the kernel body stores, read at one entry. The body loads a block of 5000 feature rows and the matching block of
  mean-of-neighbours rows, the two weight matrices whole, and the two biases as one-row matrices; it stores
  `max ((½ · (x + a)) · W₁ + b₁) 0 · W₂ + b₂`. Entry `(p, c)` of that store depends on row `p` of the two blocks only,
  and is the one-node perceptron of those two rows.

  Each matrix product accumulates into a zero splat, so at the extended reals it is the plain sum over the contracted
  axis: `(L · R) (p, k) = ∑ j, L (p, j) · R (j, k)`. A one-row bias broadcast down the rows reads the row at the column.
-/
import proofs.«413359_j55731495632942_3_alg».proof.Proof.Gen.KernelIdeal.Skeleton
import proofs.«413359_j55731495632942_3_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Node

open Cert.KernelIdeal Cert.KernelIdeal.Gen Idealize.ShloMosaic Idealize.ShloMosaic.ValueIdx Cert.Mlp

/-! ## The first product: [5000, 128] by [128, 256] -/

theorem lhs1_0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs1_0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs1_1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry `(p, k)` of the first product is the sum over the 128 features. -/
theorem product1_apply (L : FVec Ideal S5000x128 .f32) (R : FVec Ideal S128x256 .f32) (p : Fin 5000) (k : Fin 256) :
    matmul dot_S5000x128_S128x256_S5000x256_1_0_0_1_n_n (some .fp32) L R (constant S5000x256 .f32 0x00000000#32) (ix2 p k) = ∑ j : Fin 128, L (ix2 p j) * R (ix2 j k) := by
  simp only [matmul]
  rw [Ideal.matmul_constant_zero_apply, ← Equiv.sum_comp (contrEquiv1 dot_S5000x128_S128x256_S5000x256_1_0_0_1_n_n 128 rfl rfl).symm]
  refine Finset.sum_congr rfl fun j _ => ?_
  have hk := contrEquiv1_symm_val dot_S5000x128_S128x256_S5000x256_1_0_0_1_n_n 128 rfl rfl j
  have el : dot_S5000x128_S128x256_S5000x256_1_0_0_1_n_n.lhsIdx (ix2 p k) ((contrEquiv1 dot_S5000x128_S128x256_S5000x256_1_0_0_1_n_n 128 rfl rfl).symm j) = ix2 p j := funext fun a => Fin.ext (by
    match a with
    | ⟨0, _⟩ => exact lhs1_0 _ _
    | ⟨1, _⟩ => exact (lhs1_1 _ _).trans hk)
  have er : dot_S5000x128_S128x256_S5000x256_1_0_0_1_n_n.rhsIdx (ix2 p k) ((contrEquiv1 dot_S5000x128_S128x256_S5000x256_1_0_0_1_n_n 128 rfl rfl).symm j) = ix2 j k := funext fun a => Fin.ext (by
    match a with
    | ⟨0, _⟩ => exact (rhs1_0 _ _).trans hk
    | ⟨1, _⟩ => exact rhs1_1 _ _)
  rw [el, er]

/-! ## The second product: [5000, 256] by [256, 128] -/

theorem lhs2_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs2_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs2_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs2_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry `(p, c)` of the second product is the sum over the 256 hidden units. -/
theorem product2_apply (L : FVec Ideal S5000x256 .f32) (R : FVec Ideal S256x128 .f32) (p : Fin 5000) (c : Fin 128) :
    matmul dot_S5000x256_S256x128_S5000x128_1_0_0_1_n_n (some .fp32) L R (constant S5000x128 .f32 0x00000000#32) (ix2 p c) = ∑ k : Fin 256, L (ix2 p k) * R (ix2 k c) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p c) ((contrEquiv1 dot_S5000x256_S256x128_S5000x128_1_0_0_1_n_n 256 rfl rfl).symm k) = ix2 p k := funext fun a => Fin.ext (by
    match a with
    | ⟨0, _⟩ => exact lhs2_0 _ _
    | ⟨1, _⟩ => exact (lhs2_1 _ _).trans hk)
  have er : dot_S5000x256_S256x128_S5000x128_1_0_0_1_n_n.rhsIdx (ix2 p c) ((contrEquiv1 dot_S5000x256_S256x128_S5000x128_1_0_0_1_n_n 256 rfl rfl).symm k) = ix2 k c := funext fun a => Fin.ext (by
    match a with
    | ⟨0, _⟩ => exact (rhs2_0 _ _).trans hk
    | ⟨1, _⟩ => exact rhs2_1 _ _)
  rw [el, er]

/-! ## The store at an entry -/

/-- Entry `(p, c)` of the body's store is the perceptron of row `p` of the two loaded blocks. -/
theorem store_apply (v0 v1 : Vec Ideal S5000x128 .f32) (v6 : Vec Ideal S128x256 .f32) (v8 : Vec Ideal S1x256 .f32)
    (v14 : Vec Ideal S256x128 .f32) (v16 : Vec Ideal S1x128 .f32) (p : Fin 5000) (c : Fin 128) :
    k0_pay1 (F := Ideal) v0 v1 v6 v8 v14 v16 (ix2 p c)
      = node (row v0 p) (row v1 p) v6 (fun k => v8 (ix2 (0 : Fin 1) k)) v14 (fun c => v16 (ix2 (0 : Fin 1) c)) c := by
  unfold k0_pay1
  simp only [shapeCast_self]
  rw [addf_apply, product2_apply, broadcastTo_1b_ab_apply]
  unfold node
  refine congrArg (· + v16 (ix2 (0 : Fin 1) c)) (Finset.sum_congr rfl fun k _ => ?_)
  rw [maximumf_apply, addf_apply, product1_apply, broadcastTo_1b_ab_apply, broadcast_apply]
  unfold Cert.Mlp.hidden
  simp only [mulf_apply, addf_apply, broadcast_apply]
  rfl

end Cert.KernelIdeal.Node

end
-- ==== Proof.KernelHost.lean ====
/-
  What the host computes before the kernel is launched, as pure terms of the argument arrays.

  The edge list is a [2, 800000] array of node numbers: row 0 the source of each edge, row 1 its destination. A source
  number below zero counts from the end (50000 is added to it). For each edge the source's feature row is taken; an
  edge whose (wrapped) source lies outside `0 … 49999` gets a row of one fixed fill word instead. Each taken row is
  scaled by the edge's weight and added into its destination's row; the count of edges into each node, floored at one,
  divides that sum: the mean of the neighbours' weighted features.

  Only the in-range test and the fill are particular to this program; the tail from the taken rows to the mean is kept
  as one function, never opened.

  The two biases reach the kernel as one-row matrices: a length-`n` vector recast as `[1, n]`.
-/
import proofs.«413359_j55731495632942_3_alg».proof.Proof.Gen.KernelIdeal.Frame
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

/-- The sources of the edges: row 0 of the edge list. -/
def srcOf (e : IVec S2x800000 32) : IVec S800000 32 :=
  shapeCast S800000 (extractStridedSlice S1x800000 ![0, 0] e slices_S2x800000_S1x800000_0_0) shapeCasts_S1x800000_S800000

/-- The destinations of the edges: row 1 of the edge list. -/
def dstOf (e : IVec S2x800000 32) : IVec S800000 32 :=
  shapeCast S800000 (extractStridedSlice S1x800000 ![1, 0] e slices_S2x800000_S1x800000_1_0) shapeCasts_S1x800000_S800000

/-- A node number below zero counts from the end. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- A vector of node numbers as a column of start indices. -/
def col (s : IVec S800000 32) : IVec S800000x1 32 := broadcastInDim S800000x1 ![0] bcast_S800000_S800000x1_0 s

/-- Per edge: is the start index a row of the feature array, `0 ≤ k ≤ 49999`? -/
def inside (k : IVec S800000x1 32) : IVec S800000 1 :=
  Host.reduce IntOp.andi
    (andi (cmpi .sge k (broadcastInDim S800000x1 ![] bcast_S_S800000x1 (constantI S_ 32 0#32)))
      (cmpi .sle k (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows the start indices name. -/
def rowsAt (x : FVec F S50000x128 .f32) (k : IVec S800000x1 32) : FVec F S800000x128 .f32 :=
  Host.gather gather_S50000x128_S800000x1_S800000x128_1_0_n_n_0_1_1128 x k

/-- The rows taken: the named row where the start index is inside, the fill word elsewhere. -/
def taken (x : FVec F S50000x128 .f32) (k : IVec S800000x1 32) : FVec F S800000x128 .f32 :=
  select (broadcastInDim S800000x128 ![0] bcast_S800000_S800000x128_0 (inside k)) (rowsAt x k)
    (broadcastInDim S800000x128 ![] bcast_S_S800000x128 (constant S_ .f32 0x7FC00000#32))

/-- From one row per edge to the mean per node: scale by the edge weight, add into the destination's row, divide by the
    number of edges into the node floored at one. -/
def meanOf (g : FVec F S800000x128 .f32) (d : IVec S800000 32) (w : FVec F S800000 .f32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (mulf g (broadcastInDim S800000x128 ![0, 1] bcast_S800000x1_S800000x128_0_1 (broadcastInDim S800000x1 ![0] bcast_S800000_S800000x1_0 w))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

variable (m : (ℓ : Loc nD τ sig) → Buf (Elt F) ℓ)

set_option maxHeartbeats 2000000 in
/-- The mean-of-neighbours array the region finds. -/
theorem agg_eq (c : Dev nD) :
    (V m c main_v19 : (⟨S50000x128, .f32⟩ : BufTy).Contents (Elt F))
      = meanOf (taken (m ((c : Thread nD τ).loc main_arg0)) (col (wrapped (srcOf (m ((c : Thread nD τ).loc main_arg1))))))
          (dstOf (m ((c : Thread nD τ).loc main_arg1))) (m ((c : Thread nD τ).loc main_arg2)) := by
  dsimp only [V]
  simp only [hostOps0, hostOps0_1, hostOps0_2, List.flatten_cons, List.flatten_nil, List.append_nil, List.cons_append,
    List.nil_append]
  after_results_simp
  simp only [TRef.ofBuf, TRef.toBuf, cast_eq]
  rfl

/-- The first bias as the region finds it: the vector recast as one row. -/
theorem bias1_eq (c : Dev nD) :
    (V m c main_v20 : (⟨S1x256, .f32⟩ : BufTy).Contents (Elt F))
      = shapeCast S1x256 (m ((c : Thread nD τ).loc main_arg4)) shapeCasts_S256_S1x256 := by
  dsimp only [V]
  simp only [hostOps0, hostOps0_1, hostOps0_2, List.flatten_cons, List.flatten_nil, List.append_nil, List.cons_append,
    List.nil_append]
  after_results
  rfl

/-- The second bias as the region finds it: the vector recast as one row. -/
theorem bias2_eq (c : Dev nD) :
    (V m c main_v21 : (⟨S1x128, .f32⟩ : BufTy).Contents (Elt F))
      = shapeCast S1x128 (m ((c : Thread nD τ).loc main_arg6)) shapeCasts_S128_S1x128 := by
  dsimp only [V]
  simp only [hostOps0, hostOps0_1, hostOps0_2, List.flatten_cons, List.flatten_nil, List.append_nil, List.cons_append,
    List.nil_append]
  after_results
  rfl

end Cert.KernelIdeal.Glue

end
-- ==== Proof.LibAllOnes.lean ====
/-
  An `all` of ones is one: the converse of reading a `jnp.all` back.

  A one-operand reduction by `and` is a left fold of `and` from its initial word over the operand's entries that reduce
  into the result's index. A fold of `and` that starts at 1 and meets only 1s ends at 1; so where every entry of the operand
  is 1 and the initial word is 1, the reduction is 1 at every index of the result, whatever the axes reduced.
  (The other direction — a reduction that is 1 had 1 at every entry — is the library's.) Use: a program computes a
  per-element range test and reduces it; a precondition gives the range; this turns the reduction into the constant 1.
-/
import Idealize.ShloMosaic.Lib.Affine
import Idealize.ShloMosaic.PureOps.Reduce

namespace Cert.LibAllOnes

open Idealize.ShloMosaic

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 by decide]
    exact foldl_andi_ones f hf l

/-- A reduction by `and` from an initial word 1 over an array of ones is 1 at every index of the result. -/
theorem reduce_andi_ones {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1) (j : t.Idx) :
    Host.reduce IntOp.andi x init h hu j = 1#1 := by
  unfold Host.reduce
  rw [hinit]
  exact foldl_andi_ones (fun n => x (s.rowMajor.symm n)) (fun n => hx _) _

end Cert.LibAllOnes
-- ==== Proof.SrcRange.lean ====
/-
  The source numbers in range, and what that buys.

  The precondition's last conjunct says of every edge's source number `s` that `-50000 ≤ s < 50000` (read as a signed
  word): a node number, or a node number counted from the end. Wrapping adds 50000 to a negative one, and no word
  overflows there, so the wrapped number `k` satisfies `0 ≤ k ≤ 49999`. The host's per-edge test `0 ≤ k ∧ k ≤ 49999` is
  then true of every edge, its all-over-one-column reduction is 1, the select that guards the taken rows always picks the
  named row, and the fill word never reaches the result.

  Read back out of the printed predicate: the predicate is a conjunction whose last conjunct is an `all` of
  `(s ≥ -50000) ∧ (s < 50000)` over the edges; a conjunction that is 1 has both conjuncts 1, an `all` that is 1 has every
  element 1, and a signed comparison that is 1 is the comparison of the words' signed values.
-/
import proofs.«413359_j55731495632942_3_alg».proof.Pre_finite_inputs
import proofs.«413359_j55731495632942_3_alg».proof.Proof.Gen.Pre_finite_inputs
import proofs.«413359_j55731495632942_3_alg».proof.Proof.KernelHost
import proofs.«413359_j55731495632942_3_alg».proof.Proof.LibAllOnes
import Idealize.ShloMosaic.Lib.ReduceAll
import Idealize.ShloMosaic.Lib.Affine
import Idealize.ShloMosaic.Lib.ValueIdx
import Idealize.ShloMosaic.Lib.Pipeline.Value

noncomputable section

namespace Cert.KernelIdeal.SrcRange

open Cert.KernelIdeal Cert.KernelIdeal.Gen Cert.KernelIdeal.Glue Idealize.ShloMosaic Idealize.ShloMosaic.ValueIdx Cert.LibAllOnes

/-- Every source number is a node number or a node number counted from the end. -/
def InRange (s : IVec S800000 32) : Prop := ∀ e : S800000.Idx, -50000 ≤ (s e).toInt ∧ (s e).toInt < 50000

/-! ## One word -/

/-- Adding 50000 to a word in `-50000 … -1` does not overflow. -/
theorem toInt_add_count (s : BitVec 32) (h1 : -50000 ≤ s.toInt) (h2 : s.toInt < 0) : (s + 50000#32).toInt = s.toInt + 50000 := by
  rw [BitVec.toInt_add]
  have h5 : (50000#32 : BitVec 32).toInt = 50000 := by decide
  rw [h5]
  exact Int.bmod_eq_of_le (by omega) (by omega)

/-- The wrapped number of a source in range is a row of the feature array. -/
theorem wrap_word (s : BitVec 32) (h1 : -50000 ≤ s.toInt) (h2 : s.toInt < 50000) :
    (0#32 : BitVec 32).toInt ≤ (Scalar.select (IntOp.cmpi .slt s 0#32) (IntOp.addi s 50000#32) s).toInt
      ∧ (Scalar.select (IntOp.cmpi .slt s 0#32) (IntOp.addi s 50000#32) s).toInt ≤ (49999#32 : BitVec 32).toInt := by
  have h0 : (0#32 : BitVec 32).toInt = 0 := by decide
  have h9 : (49999#32 : BitVec 32).toInt = 49999 := by decide
  rw [h0, h9]
  by_cases hneg : s.toInt < 0
  · have hc : IntOp.cmpi .slt s 0#32 = 1#1 := IntOp.cmpi_slt.2 (by rw [h0]; exact hneg)
    rw [hc, select_one]
    have ha : (IntOp.addi s 50000#32).toInt = s.toInt + 50000 := toInt_add_count s h1 hneg
    omega
  · have hc : ¬ IntOp.cmpi .slt s 0#32 = 1#1 := fun h => hneg (by have := IntOp.cmpi_slt.1 h; rwa [h0] at this)
    rw [eq_zero_of_ne_one hc, select_zero]
    omega

/-! ## The column of wrapped numbers -/

/-- Entry `i` of the start-index column is the wrapped source number of edge `i 0`. -/
theorem col_wrapped_apply (s : IVec S800000 32) (i : S800000x1.Idx) :
    col (wrapped s) i
      = Scalar.select (IntOp.cmpi .slt (s (ix1 (n := 800000) (i 0))) 0#32) (IntOp.addi (s (ix1 (n := 800000) (i 0))) 50000#32)
          (s (ix1 (n := 800000) (i 0))) := by
  unfold col
  rw [broadcastInDim_apply ![0] bcast_S800000_S800000x1_0 (wrapped s) i (ix1 (n := 800000) (i 0)) (fun a => match a with
    | ⟨0, _⟩ => by show (i 0).val = if (800000 : Nat) = 1 then 0 else (i 0).val; rw [if_neg (by decide)])]
  rfl

/-! ## Every edge passes the test -/

/-- With the sources in range, every edge passes the host's test. -/
theorem inside_ones (s : IVec S800000 32) (hs : InRange s) : inside (col (wrapped s)) = fun _ => 1#1 := by
  funext j
  unfold inside
  refine reduce_andi_ones _ (fun i => ?_) _ _ _ rfl j
  show IntOp.andi (IntOp.cmpi .sge (col (wrapped s) i) 0#32) (IntOp.cmpi .sle (col (wrapped s) i) 49999#32) = 1#1
  rw [IntOp.andi_eq_one, IntOp.cmpi_sge, IntOp.cmpi_sle, col_wrapped_apply]
  exact wrap_word _ (hs _).1 (hs _).2

/-- So the rows taken are the rows named: the fill is never selected. -/
theorem taken_eq {F : FTy → Type} [FloatOps F] (x : FVec F S50000x128 .f32) (s : IVec S800000 32) (hs : InRange s) :
    taken x (col (wrapped s)) = rowsAt x (col (wrapped s)) := by
  unfold taken
  rw [inside_ones s hs]
  funext i
  exact select_one _ _

/-! ## The range, read out of the precondition -/

instance : Subsingleton Cert.Pre_finite_inputs.S_.Idx := ⟨fun a b => funext fun d => d.elim0⟩

/-- The precondition gives every source number its range. -/
theorem inRange_of_pre {F : FTy → Type} [FloatOps F] (a0 : FVec F S50000x128 .f32) (a1 : IVec S2x800000 32) (a2 : FVec F S800000 .f32)
    (a3 : FVec F S128x256 .f32) (a4 : FVec F S256 .f32) (a5 : FVec F S256x128 .f32) (a6 : FVec F S128 .f32)
    (h : Cert.Pre_finite_inputs.fn (F := F) a0 a1 a2 a3 a4 a5 a6 = fun _ => 1#1) : InRange (srcOf a1) := by
  have h0 := congrFun h ix0
  unfold Cert.Pre_finite_inputs.fn Cert.Pre_finite_inputs.fn_part1 Cert.Pre_finite_inputs.fn_part2 at h0
  obtain ⟨-, h38⟩ := IntOp.andi_eq_one.1 h0
  intro e
  obtain ⟨hlo, hhi⟩ := IntOp.andi_eq_one.1 (Host.reduce_andi_all _ _ _ _ ix0 h38 e)
  have hm : (4294917296#32 : BitVec 32).toInt = -50000 := by decide
  have hp : (50000#32 : BitVec 32).toInt = 50000 := by decide
  refine ⟨?_, ?_⟩
  · rw [← hm]; exact IntOp.cmpi_sge.1 hlo
  · rw [← hp]; exact IntOp.cmpi_slt.1 hhi

end Cert.KernelIdeal.SrcRange

end
-- ==== Proof.KernelBlocks.lean ====
/-
  From blocks to the array. The grid has ten points; at point `t` the kernel holds rows `5000·t … 5000·t + 4999` of the
  features and of the mean-of-neighbours array, the two weight matrices and the two one-row biases whole, and writes
  back rows `5000·t … 5000·t + 4999` of the result. Since an output row depends on the same row of the two inputs only,
  what point `t` writes back is block `t` of ONE whole-array function, the layer; the ten blocks are disjoint and cover
  all 50000 rows (row `r` lies in block `r / 5000`), so after the run the result array IS the layer of the arrays the
  region found.
-/
import proofs.«413359_j55731495632942_3_alg».proof.Proof.Gen.KernelIdeal.Value
import proofs.«413359_j55731495632942_3_alg».proof.Proof.KernelNode
import proofs.«413359_j55731495632942_3_alg».proof.Proof.KernelHost
import Idealize.ShloMosaic.Lib.Pipeline.Value
import Idealize.ShloMosaic.Lib.ValueLayout

noncomputable section

namespace Cert.KernelIdeal.Blocks

open Cert.KernelIdeal Cert.KernelIdeal.Gen Cert.KernelIdeal.Value Cert.KernelIdeal.Glue Cert.KernelIdeal.Node
open Idealize.ShloMosaic Idealize.ShloMosaic.TcCoe Idealize.SL.Sem Idealize.ShloMosaic.ValueIdx Cert.Mlp
open Idealize.ShloMosaic.Pipeline (Dat)

/-! ## One point, over plain arrays -/

/-- If the loaded blocks are the rows of the arrays that the output entry's row names, the whole weights, and the
    biases as rows, then the body's store at an entry of the block is the layer at the matching entry of the array. -/
theorem point_eq (x0 x1 : Vec Ideal S5000x128 .f32) (x2 : Vec Ideal S128x256 .f32) (x3 : Vec Ideal S1x256 .f32)
    (x4 : Vec Ideal S256x128 .f32) (x5 : Vec Ideal S1x128 .f32)
    (X A : S50000x128.Idx → EReal) (W1 : S128x256.Idx → EReal) (b1 : S256.Idx → EReal) (W2 : S256x128.Idx → EReal) (b2 : S128.Idx → EReal)
    (y : S5000x128.Idx) (i : S50000x128.Idx)
    (h0 : ∀ j : Fin 128, x0 (ix2 (n0 := 5000) (y 0) j) = X (ix2 (n0 := 50000) (i 0) j))
    (h1 : ∀ j : Fin 128, x1 (ix2 (n0 := 5000) (y 0) j) = A (ix2 (n0 := 50000) (i 0) j))
    (h2 : x2 = W1) (h3 : ∀ k : Fin 256, x3 (ix2 (0 : Fin 1) k) = b1 (ix1 k))
    (h4 : x4 = W2) (h5 : ∀ q : Fin 128, x5 (ix2 (0 : Fin 1) q) = b2 (ix1 q))
    (hq : (y 1).val = (i 1).val) :
    k0_pay1 (F := Ideal) x0 x1 x2 x3 x4 x5 y = layer X A W1 b1 W2 b2 i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q = q' := Fin.ext hq
  rw [store_apply, layer_apply]
  have e0 : row x0 p = row X r := funext h0
  have e1 : row x1 p = row A r := funext h1
  have e3 : (fun k : Fin 256 => x3 (ix2 (0 : Fin 1) k)) = fun k => b1 (ix1 k) := funext h3
  have e5 : (fun c : Fin 128 => x5 (ix2 (0 : Fin 1) c)) = fun c => b2 (ix1 c) := funext h5
  rw [e0, e1, e3, e5, h2, h4]

/-! ## The ten points -/

variable (m : (ℓ : Loc nD τ sig) → Buf (Elt Ideal) ℓ) (ρ : Dev nD → PrngReg)

theorem origin : (![0, 0] : Fin 2 → Nat) = fun _ => 0 := funext fun a => by fin_cases a <;> rfl

/-- Which block each window holds at point `t`, decided over the ten points: the two row-blocked inputs move with the
    output, at block row `t`; everything else stays at the origin. -/
theorem where_blocks : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array the kernel leaves: the layer of the features, the mean-of-neighbours array the host made, and the
    weights and biases as launched. -/
def result (c : Dev nD) : S50000x128.Idx → EReal :=
  layer (m ((c : Thread nD τ).loc main_arg0)) (V m c main_v19) (m ((c : Thread nD τ).loc main_arg3))
    (m ((c : Thread nD τ).loc main_arg4)) (m ((c : Thread nD τ).loc main_arg5)) (m ((c : Thread nD τ).loc main_arg6))

/-! ### A window's block at point `t`, read off ANY array

Stated for an arbitrary array, so that nothing about how the array was made is ever looked at. -/

/-- Entry `(y 0, j)` of block `t` of a row-blocked [50000, 128] array is the array's entry `j` in the row that entry `y` of
    the output's block `t` lies in (window 0). -/
theorem rows0 (Arr : S50000x128.Idx → EReal) (t : Fin cfg0.N) (y : S5000x128.Idx) (j : Fin 128) :
    ((cfg0.win 0).blk t).view.read (Elt Ideal) Arr (ix2 (n0 := 5000) (y 0) j)
      = Arr (ix2 (n0 := 50000) ((((cfg0.win 6).blk t).view.emb y) 0) j) := by
  obtain ⟨e00, e01, -, -, -, -, -, -, -, -, -, -, -, -⟩ := where_blocks t
  show Arr (((cfg0.win 0).blk t).view.emb (ix2 (n0 := 5000) (y 0) j)) = _
  refine congrArg Arr (funext fun a => Fin.ext ?_)
  match a with
  | ⟨0, _⟩ => show win0_0.index t (0 : Fin 2) * 5000 + 1 * (y 0).val = win0_6.index t (0 : Fin 2) * 5000 + 1 * (y 0).val; omega
  | ⟨1, _⟩ => show win0_0.index t (1 : Fin 2) * 128 + 1 * j.val = j.val; omega

/-- The same for window 1. -/
theorem rows1 (Arr : S50000x128.Idx → EReal) (t : Fin cfg0.N) (y : S5000x128.Idx) (j : Fin 128) :
    ((cfg0.win 1).blk t).view.read (Elt Ideal) Arr (ix2 (n0 := 5000) (y 0) j)
      = Arr (ix2 (n0 := 50000) ((((cfg0.win 6).blk t).view.emb y) 0) j) := by
  obtain ⟨-, -, e10, e11, -, -, -, -, -, -, -, -, -, -⟩ := where_blocks t
  show Arr (((cfg0.win 1).blk t).view.emb (ix2 (n0 := 5000) (y 0) j)) = _
  refine congrArg Arr (funext fun a => Fin.ext ?_)
  match a with
  | ⟨0, _⟩ => show win0_1.index t (0 : Fin 2) * 5000 + 1 * (y 0).val = win0_6.index t (0 : Fin 2) * 5000 + 1 * (y 0).val; omega
  | ⟨1, _⟩ => show win0_1.index t (1 : Fin 2) * 128 + 1 * j.val = j.val; omega

/-- Window 2 holds its [128, 256] array whole at every point. -/
theorem whole2 (Arr : S128x256.Idx → EReal) (t : Fin cfg0.N) (z : S128x256.Idx) :
    ((cfg0.win 2).blk t).view.read (Elt Ideal) Arr z = Arr z := by
  obtain ⟨-, -, -, -, e20, e21, -, -, -, -, -, -, -, -⟩ := where_blocks t
  show Arr (((cfg0.win 2).blk t).view.emb z) = _
  refine congrArg Arr (funext fun a => Fin.ext ?_)
  match a with
  | ⟨0, _⟩ => show win0_2.index t (0 : Fin 2) * 128 + 1 * (z 0).val = (z 0).val; omega
  | ⟨1, _⟩ => show win0_2.index t (1 : Fin 2) * 256 + 1 * (z 1).val = (z 1).val; omega

/-- Window 3 holds its [1, 256] array whole at every point. -/
theorem whole3 (Arr : S1x256.Idx → EReal) (t : Fin cfg0.N) (z : S1x256.Idx) :
    ((cfg0.win 3).blk t).view.read (Elt Ideal) Arr z = Arr z := by
  obtain ⟨-, -, -, -, -, -, e30, e31, -, -, -, -, -, -⟩ := where_blocks t
  show Arr (((cfg0.win 3).blk t).view.emb z) = _
  refine congrArg Arr (funext fun a => Fin.ext ?_)
  match a with
  | ⟨0, _⟩ => show win0_3.index t (0 : Fin 2) * 1 + 1 * (z 0).val = (z 0).val; omega
  | ⟨1, _⟩ => show win0_3.index t (1 : Fin 2) * 256 + 1 * (z 1).val = (z 1).val; omega

/-- Window 4 holds its [256, 128] array whole at every point. -/
theorem whole4 (Arr : S256x128.Idx → EReal) (t : Fin cfg0.N) (z : S256x128.Idx) :
    ((cfg0.win 4).blk t).view.read (Elt Ideal) Arr z = Arr z := by
  obtain ⟨-, -, -, -, -, -, -, -, e40, e41, -, -, -, -⟩ := where_blocks t
  show Arr (((cfg0.win 4).blk t).view.emb z) = _
  refine congrArg Arr (funext fun a => Fin.ext ?_)
  match a with
  | ⟨0, _⟩ => show win0_4.index t (0 : Fin 2) * 256 + 1 * (z 0).val = (z 0).val; omega
  | ⟨1, _⟩ => show win0_4.index t (1 : Fin 2) * 128 + 1 * (z 1).val = (z 1).val; omega

/-- Window 5 holds its [1, 128] array whole at every point. -/
theorem whole5 (Arr : S1x128.Idx → EReal) (t : Fin cfg0.N) (z : S1x128.Idx) :
    ((cfg0.win 5).blk t).view.read (Elt Ideal) Arr z = Arr z := by
  obtain ⟨-, -, -, -, -, -, -, -, -, -, e50, e51, -, -⟩ := where_blocks t
  show Arr (((cfg0.win 5).blk t).view.emb z) = _
  refine congrArg Arr (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

/-! ### The six input blocks of the run -/

/-- The feature block at point `t` holds the rows of the features that the output's block `t` lies in. -/
theorem feats_blk (c : Dev nD) (t : Fin cfg0.N) (y : S5000x128.Idx) (j : Fin 128) :
    iblk m c 0 t (ix2 (n0 := 5000) (y 0) j)
      = m ((c : Thread nD τ).loc main_arg0) (ix2 (n0 := 50000) ((((cfg0.win 6).blk t).view.emb y) 0) j) :=
  (rows0 (V m c main_arg0) t y j).trans (congrFun (V_main_arg0 m c) _)

/-- Likewise the mean-of-neighbours block, of the array the host made. -/
theorem mean_blk (c : Dev nD) (t : Fin cfg0.N) (y : S5000x128.Idx) (j : Fin 128) :
    iblk m c 1 t (ix2 (n0 := 5000) (y 0) j)
      = V m c main_v19 (ix2 (n0 := 50000) ((((cfg0.win 6).blk t).view.emb y) 0) j) :=
  rows1 (V m c main_v19) t y j

/-- The first weight matrix is held whole. -/
theorem w1_blk (c : Dev nD) (t : Fin cfg0.N) (z : S128x256.Idx) :
    iblk m c 2 t z = m ((c : Thread nD τ).loc main_arg3) z :=
  (whole2 (V m c main_arg3) t z).trans (congrFun (V_main_arg3 m c) z)

/-- The first bias is held as its one row, which is the bias vector. -/
theorem b1_blk (c : Dev nD) (t : Fin cfg0.N) (k : Fin 256) :
    iblk m c 3 t (ix2 (0 : Fin 1) k) = m ((c : Thread nD τ).loc main_arg4) (ix1 k) :=
  (whole3 (V m c main_v20) t (ix2 (0 : Fin 1) k)).trans
    ((congrFun (bias1_eq m c) (ix2 (0 : Fin 1) k)).trans (shapeCast_a_1a_apply _ _ _ _))

/-- The second weight matrix is held whole. -/
theorem w2_blk (c : Dev nD) (t : Fin cfg0.N) (z : S256x128.Idx) :
    iblk m c 4 t z = m ((c : Thread nD τ).loc main_arg5) z :=
  (whole4 (V m c main_arg5) t z).trans (congrFun (V_main_arg5 m c) z)

/-- The second bias is held as its one row, which is the bias vector. -/
theorem b2_blk (c : Dev nD) (t : Fin cfg0.N) (q : Fin 128) :
    iblk m c 5 t (ix2 (0 : Fin 1) q) = m ((c : Thread nD τ).loc main_arg6) (ix1 q) :=
  (whole5 (V m c main_v21) t (ix2 (0 : Fin 1) q)).trans
    ((congrFun (bias2_eq m c) (ix2 (0 : Fin 1) q)).trans (shapeCast_a_1a_apply _ _ _ _))

/-- The output block's columns are the array's columns. -/
theorem col_blk (t : Fin cfg0.N) (y : S5000x128.Idx) : (y 1).val = ((((cfg0.win 6).blk t).view.emb y) 1).val := by
  obtain ⟨-, -, -, -, -, -, -, -, -, -, -, -, -, e61⟩ := where_blocks t
  show (y 1).val = win0_6.index t (1 : Fin 2) * 128 + 1 * (y 1).val
  omega

/-- What point `t` writes back is block `t` of the result array. -/
theorem flushed_eq (c : Dev nD) (t : Fin cfg0.N) :
    (dats m 0 c).flushed 6 t = ((cfg0.win 6).blk t).view.read (Elt Ideal) (result m c) := by
  rw [flushed6]
  unfold out0_6
  rw [View.canon_unit_zero origin]
  simp only [View.ld_unit_zero (S := S5000x128) origin, View.ld_unit_zero (S := S128x256) origin,
    View.ld_unit_zero (S := S1x256) origin, View.ld_unit_zero (S := S256x128) origin, View.ld_unit_zero (S := S1x128) origin]
  funext y
  show k0_pay1 (F := Ideal) (iblk m c 0 t) (iblk m c 1 t) (iblk m c 2 t) (iblk m c 3 t) (iblk m c 4 t) (iblk m c 5 t) y
    = result m c (((cfg0.win 6).blk t).view.emb y)
  unfold result
  exact point_eq (iblk m c 0 t) (iblk m c 1 t) (iblk m c 2 t) (iblk m c 3 t) (iblk m c 4 t) (iblk m c 5 t)
    (m ((c : Thread nD τ).loc main_arg0)) (V m c main_v19) (m ((c : Thread nD τ).loc main_arg3))
    (m ((c : Thread nD τ).loc main_arg4)) (m ((c : Thread nD τ).loc main_arg5)) (m ((c : Thread nD τ).loc main_arg6))
    y (((cfg0.win 6).blk t).view.emb y)
    (feats_blk m c t y) (mean_blk m c t y) (funext (w1_blk m c t)) (b1_blk m c t) (funext (w2_blk m c t)) (b2_blk m c t)
    (col_blk t y)

/-- An entry of the result array is in point `t`'s block iff each coordinate is in the block's range on its axis. -/
theorem mem_blk (t : Fin cfg0.N) (i : S50000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- Every entry is in some point's block: row `r` in block `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, -, -, e60, e61⟩ := where_blocks t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the run the result array is the layer. -/
theorem final (c : Dev nD) : (dats m 0 c).arrAt 6 cfg0.N = result m c :=
  (dats m 0 c).arrAt_eq_of_cover 6 (result m c) (fun t _ => flushed_eq m c t) cover

/-- The kernel's run, with its result named: the layer; the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Blocks

end
-- ==== Proof.lean ====
/-
  The certificate: a graph layer in which every node averages its own features with the mean of its in-neighbours'
  weighted features and passes the average through a two-layer perceptron.

  Both programs compute the mean of the neighbours on the host by the same operations — take each edge's source row, scale
  it by the edge weight, add it into the destination's row, divide by the in-degree floored at one — except that the
  kernel's program tests each (wrapped) source number against the range `0 … 49999` and substitutes a fill word outside
  it, where the reference's take clamps. The two agree exactly when every source number, counted from the end if
  negative, names a row; the precondition says so, and under it the fill is never selected (Proof/SrcRange.lean), so
  the two means are one array (`mean_eq` below).

  The perceptron is then the same function on both sides, row by row (Proof/MlpSpec.lean): the kernel evaluates it on
  blocks of 5000 rows whose union is the array (Proof/KernelNode.lean, Proof/KernelBlocks.lean), the reference on the
  array at once (Proof/RefLayer.lean). At the extended reals a matrix product into a zero accumulator and the host's
  `dot_general` are the same sum, so no algebraic law is needed and the finiteness of the float inputs is never used.

  The idealization rewrote nothing, so `preserves` is trivial; the three frames are the generated ones, the reference's
  being its run with the result dropped.
-/
import proofs.«413359_j55731495632942_3_alg».proof.Defs
import proofs.«413359_j55731495632942_3_alg».proof.Proof.Gen.Kernel
import proofs.«413359_j55731495632942_3_alg».proof.Proof.Gen.Kernel.Skeleton
import proofs.«413359_j55731495632942_3_alg».proof.Proof.Gen.Kernel.Launch
import proofs.«413359_j55731495632942_3_alg».proof.Proof.Gen.Kernel.Points
import proofs.«413359_j55731495632942_3_alg».proof.Proof.Gen.Kernel.Frame
import proofs.«413359_j55731495632942_3_alg».proof.Proof.Gen.KernelIdeal
import proofs.«413359_j55731495632942_3_alg».proof.Proof.Gen.KernelIdeal.Skeleton
import proofs.«413359_j55731495632942_3_alg».proof.Proof.Gen.KernelIdeal.Launch
import proofs.«413359_j55731495632942_3_alg».proof.Proof.Gen.KernelIdeal.Points
import proofs.«413359_j55731495632942_3_alg».proof.Proof.Gen.KernelIdeal.Frame
import proofs.«413359_j55731495632942_3_alg».proof.Proof.Gen.ReferenceIdeal
import proofs.«413359_j55731495632942_3_alg».proof.Proof.Gen.Pre_finite_inputs
import proofs.«413359_j55731495632942_3_alg».proof.Proof.Gen.KernelIdeal.Value
import proofs.«413359_j55731495632942_3_alg».proof.Proof.Gen.ReferenceIdeal.Run
import proofs.«413359_j55731495632942_3_alg».proof.Proof.Gen.ReferenceIdeal.Read
import proofs.«413359_j55731495632942_3_alg».proof.Proof.MlpSpec
import proofs.«413359_j55731495632942_3_alg».proof.Proof.RefLayer
import proofs.«413359_j55731495632942_3_alg».proof.Proof.KernelNode
import proofs.«413359_j55731495632942_3_alg».proof.Proof.KernelHost
import proofs.«413359_j55731495632942_3_alg».proof.Proof.SrcRange
import proofs.«413359_j55731495632942_3_alg».proof.Proof.KernelBlocks
import Idealize.ShloMosaic.Adequacy
import Idealize.ShloMosaic.Init

noncomputable section

namespace Cert.Proof

open Idealize.ShloMosaic Idealize.ShloMosaic.TcCoe Idealize.SL.Sem

/-! ## The two means are one array -/

/-- The reference's mean-of-neighbours stage is the host tail over the rows the wrapped source numbers name. -/
theorem ref_mean (x0 : FVec Ideal Cert.KernelIdeal.S50000x128 .f32) (x1 : IVec Cert.KernelIdeal.S2x800000 32)
    (x2 : FVec Ideal Cert.KernelIdeal.S800000 .f32) :
    Cert.ReferenceIdeal.Read.val_main_v25 (F := Ideal) x0 x1 x2
      = Cert.KernelIdeal.Glue.meanOf
          (Cert.KernelIdeal.Glue.rowsAt x0 (Cert.KernelIdeal.Glue.col (Cert.KernelIdeal.Glue.wrapped (Cert.KernelIdeal.Glue.srcOf x1))))
          (Cert.KernelIdeal.Glue.dstOf x1) x2 := rfl

open Cert.KernelIdeal in
/-- Under the precondition the reference's mean stage, of the kernel's arguments, is the array the kernel's region finds. -/
theorem mean_eq (m : (ℓ : Loc nD τ sig) → Buf (Elt Ideal) ℓ) (hpre : Cert.Pre_KernelIdeal m) (c : Dev nD) :
    Cert.ReferenceIdeal.Read.val_main_v25 (F := Ideal) (m ((c : Thread nD τ).loc main_arg0)) (m ((c : Thread nD τ).loc main_arg1))
        (m ((c : Thread nD τ).loc main_arg2))
      = Gen.V m c main_v19 := by
  rw [Glue.agg_eq, SrcRange.taken_eq _ _ (SrcRange.inRange_of_pre _ _ _ _ _ _ _ (hpre c))]
  exact ref_mean _ _ _

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer of the same arrays: the kernel's by blocks, the reference's at once; the two
    mean-of-neighbours arrays agree because every source number is in range. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v37_eq, Cert.ReferenceIdeal.Layer.result_eq, a0, a1, a2, a3, a4, a5, a6,
    mean_eq m hpre c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
